-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel

variable [Facts]

def fn {F : FTy → Type} [FloatOps F] (main_arg0 : FVec F S8x4096x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  main_v3
-- ==== Kernel.lean ====
abbrev S8x4096x1024 : Shape := ⟨3, ![8, 4096, 1024]⟩
abbrev S1x1024x1024 : Shape := ⟨3, ![1, 1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x1024.size a
  hwx0_1 : ∀ i : grid0.Coords, EltTy.bits .f32 = 32 ∨ (Rect.block (s := S8x4096x1024) S1x1024x1024.size (cc0_transform_1 i) (hinb0_1 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x4096x1024 : Shape := ⟨3, ![8, 4096, 1024]⟩

abbrev nBuf : Space → Nat
  | .hbm => 1
  | .vmem => 0
  | .smem => 0
  | _ => 0

abbrev bufTy : (tb : Table) → Fin (tcTables nBuf tb) → BufTy
  | .hbm, ⟨0, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.CopyValue.lean ====
/-
  The kernel is a tiled copy. Its grid has 8 x 4 points; at point (b, r) the input window and the output
  window both sit on block (b, r, 0) of their [8, 4096, 1024] arrays, a block being [1, 1024, 1024], and
  the body stores the loaded input block, whole, into the output block. So what a point writes back is
  the ARGUMENT array read through that point's output block, and since the 32 output blocks tile the
  output array, the output array ends as the argument array, index by index.
-/
import proofs.«169507_j28432683499934_1_alg».proof.Proof.Gen.KernelIdeal.Value
import Idealize.ShloMosaic.Lib.Pipeline.Value

noncomputable section

namespace Cert.KernelIdeal.Copy

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's one load and one store start at the block's origin. -/
theorem origin : (![0, 0, 0] : Fin 3 → Nat) = fun _ => 0 := funext fun a => by fin_cases a <;> rfl

/-- At every grid point the input window's block index is the output window's, axis by axis; and the output's
    block indices run over 8 batches, 4 row blocks and the one column block. -/
theorem same_block : ∀ t : Fin cfg0.N, win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) ≤ 7 ∧ win0_1.index t (1 : Fin 3) ≤ 3 ∧ win0_1.index t (2 : Fin 3) ≤ 0 :=
  (by decide +kernel : ∀ t : Fin grid0.N, _)

/-- Every block (b, r, 0) of the output array is some grid point's. -/
theorem every_block : ∀ (b : Fin 8) (r : Fin 4), ∃ t : Fin cfg0.N, win0_1.index t = ![b.val, r.val, 0] :=
  (by decide +kernel : ∀ (b : Fin 8) (r : Fin 4), ∃ t : Fin grid0.N, win0_1.index t = ![b.val, r.val, 0])

/-- WHAT POINT `t` WRITES BACK is the argument array read through the point's output block: the body stores
    the input block it loaded, and the input block lies where the output block does. -/
theorem flushed_is_arg_block (c : Dev nD) (t : Fin cfg0.N) :
    (dats m 0 c).flushed 1 t = ((cfg0.win 1).blk t).view.read (Elt F) (V m c main_arg0) := by
  rw [Value.flushed1]
  unfold out0_1
  rw [View.canon_unit_zero origin]
  simp only [View.ld_unit_zero (S := S1x1024x1024) origin]
  obtain ⟨e0, e1, e2, -, -, -⟩ := same_block t
  funext j
  show V m c main_arg0 (((cfg0.win 0).blk t).view.emb j) = V m c main_arg0 (((cfg0.win 1).blk t).view.emb j)
  have h : ((cfg0.win 0).blk t).view.emb j = ((cfg0.win 1).blk t).view.emb j := by
    funext a; apply Fin.ext
    match a with
    | ⟨0, _⟩ => show win0_0.index t (0 : Fin 3) * 1 + 1 * (j 0).val = win0_1.index t (0 : Fin 3) * 1 + 1 * (j 0).val; omega
    | ⟨1, _⟩ => show win0_0.index t (1 : Fin 3) * 1024 + 1 * (j 1).val = win0_1.index t (1 : Fin 3) * 1024 + 1 * (j 1).val; omega
    | ⟨2, _⟩ => show win0_0.index t (2 : Fin 3) * 1024 + 1 * (j 2).val = win0_1.index t (2 : Fin 3) * 1024 + 1 * (j 2).val; omega
  rw [h]

/-- An index of the output array is in point `t`'s block iff each coordinate is in the block's range on its axis. -/
theorem mem_block (t : Fin cfg0.N) (i : S8x4096x1024.Idx) :
    i ∈ ((cfg0.win 1).blk t).view.set ↔ ∀ a : Fin 3, win0_1.index t a * S1x1024x1024.size a ≤ (i a).val ∧ (i a).val < win0_1.index t a * S1x1024x1024.size a + S1x1024x1024.size a := by
  show i ∈ ((View.whole main_v0).slice (win0_1.rect t)).set ↔ _
  rw [View.set_slice_whole, Rect.mem_set_unit]
  exact Iff.rfl

/-- THE BLOCKS TILE THE ARRAY: index (b, r, k) is in the block of the point whose block index is (b, r / 1024, 0). -/
theorem covered (i : S8x4096x1024.Idx) :
    ∃ t : Fin cfg0.N, (cfg0.win 1).flush t = true ∧ i ∈ ((cfg0.win 1).blk t).view.set := by
  have hi0 : (i 0).val < 8 := (i 0).isLt
  have hi1 : (i 1).val < 4096 := (i 1).isLt
  have hi2 : (i 2).val < 1024 := (i 2).isLt
  obtain ⟨t, ht⟩ := every_block ⟨(i 0).val, hi0⟩ ⟨(i 1).val / 1024, by omega⟩
  have q0 : win0_1.index t (0 : Fin 3) = (i 0).val := congrFun ht 0
  have q1 : win0_1.index t (1 : Fin 3) = (i 1).val / 1024 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 1024 ≤ (i 2).val ∧ (i 2).val < win0_1.index t (2 : Fin 3) * 1024 + 1024; omega

/-- THE OUTPUT ARRAY after the run is the argument array as launched. -/
theorem output_is_arg (c : Dev nD) :
    (dats m 0 c).arrAt 1 cfg0.N = m ((c : Thread nD τ).loc main_arg0) :=
  (dats m 0 c).arrAt_eq_of_cover 1 (V m c main_arg0) (fun t _ => flushed_is_arg_block m c t) covered

/-- The kernel's run: every weakly fair execution terminates with the result array holding the argument
    array's launch contents, the argument array unchanged. -/
theorem run : θ_run defs (onTc (τ := τ) (main (F := F))) ⟨m, fun _ => 0, ρ⟩ fun r => ∀ c : Dev nD,
      r.2.mem ((c : Thread nD τ).loc main_v0) = m ((c : Thread nD τ).loc main_arg0)
      ∧ r.2.mem ((c : Thread nD τ).loc main_arg0) = m ((c : Thread nD τ).loc main_arg0) :=
  (θ_run defs _ _).mono (fun r h c => ⟨(h c).1.trans (output_is_arg m c), (h c).2⟩)
    (Value.run_blocks m ρ)

end Cert.KernelIdeal.Copy

end
-- ==== Proof.RefRun.lean ====
/-
  The reference program does nothing: its @main returns its argument, so it has no host operation at all
  and its one result IS the argument array. Read as a straight line of zero StableHLO operations, every
  weakly fair execution of it terminates at once, nothing faults, and each device's argument array
  ends as it was launched.
-/
import proofs.«169507_j28432683499934_1_alg».proof.Proof.Gen.ReferenceIdeal
import Idealize.ShloMosaic.Lib.StableHlo.Run

noncomputable section

namespace Cert.ReferenceIdeal.Identity

open Cert.ReferenceIdeal Cert.ReferenceIdeal.Gen Idealize.ShloMosaic Idealize.ShloMosaic.TcCoe Idealize.SL.Sem Idealize.ShloMosaic.StableHlo

variable {F : FTy → Type} [FloatOps F]

/-- @main is the empty line of host operations. -/
theorem main_is_empty (c : Dev nD) : main (F := F) c = seq [] := rfl

/-- The signature has one HBM buffer and nothing else, so nothing in it is scoped. -/
theorem no_scoped_refs : (Finset.univ.filter fun b : Ref sig .tc => b.isScoped) = ∅ := by decide
theorem no_scoped_sems : (Finset.univ.filter fun sm : SemLoc sig => sm.isScoped .tc) = ∅ := by decide

/-- Every weakly fair execution of the identity program terminates with the argument array, which is also
    its result, holding what it held at launch: the fold of no operations over the launch contents is the
    launch contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => h c main_arg0)
    (run_seq no_scoped_refs no_scoped_sems defs main (fun _ => []) main_is_empty (fun _ => trivial) m ρ
      (fun _ _ h => nomatch h))

end Cert.ReferenceIdeal.Identity

end
-- ==== Proof.lean ====
/-
  The kernel is a tiled identity copy of an f32[8, 4096, 1024] array and the reference returns its argument.
  All three programs run, terminate and leave the argument array as launched: the kernel at the word level
  and at the extended reals by its pipeline's frame, the reference because its @main has no operation.
  The idealization rewrote nothing, so there is nothing to preserve. At the extended reals the kernel's
  result array ends holding the argument array (the 32 blocks the grid writes back tile it and each is
  the argument read through that block), and the reference's result IS its argument array; from memories
  that agree on the argument the two results are therefore equal, index by index. No arithmetic is done
  on the entries, so finiteness of the input is never used.
-/
import proofs.«169507_j28432683499934_1_alg».proof.Defs
import proofs.«169507_j28432683499934_1_alg».proof.Proof.Gen.Kernel
import proofs.«169507_j28432683499934_1_alg».proof.Proof.Gen.Kernel.Frame
import proofs.«169507_j28432683499934_1_alg».proof.Proof.Gen.KernelIdeal
import proofs.«169507_j28432683499934_1_alg».proof.Proof.Gen.KernelIdeal.Frame
import proofs.«169507_j28432683499934_1_alg».proof.Proof.Gen.ReferenceIdeal
import proofs.«169507_j28432683499934_1_alg».proof.Proof.Gen.Pre_finite_inputs
import proofs.«169507_j28432683499934_1_alg».proof.Proof.CopyValue
import proofs.«169507_j28432683499934_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and keeps its argument array. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference has nothing to run: its argument array stays as launched. -/
theorem frame_reference : Cert.frame_ReferenceIdeal := fun m ρ _ => Cert.ReferenceIdeal.Identity.run (F := Ideal) m ρ

/-- The kernel's result array ends at the argument array `m` launched it with; the reference's result is its own
    argument array, which agrees with `m`'s. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    Cert.KernelIdeal.Copy.run (F := Ideal) m ρ, ?_⟩
  refine (θ_run Cert.ReferenceIdeal.defs _ _).mono (fun _ h c => ⟨(h c).trans (hagree c), h c⟩)
    (Cert.ReferenceIdeal.Identity.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
